-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S100000x128 .f32) (main_arg1 : IVec S2x1600000 32) (main_arg2 : FVec F S128x32 .f32) (main_arg3 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg2
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S96x128 : Shape := ⟨2, ![96, 128]⟩
abbrev S100096x128 : Shape := ⟨2, ![100096, 128]⟩
abbrev S32x100096 : Shape := ⟨2, ![32, 100096]⟩
abbrev S5888x128 : Shape := ⟨2, ![5888, 128]⟩
abbrev S32x5888 : Shape := ⟨2, ![32, 5888]⟩
abbrev S5888x32 : Shape := ⟨2, ![5888, 32]⟩
abbrev S100096x32 : Shape := ⟨2, ![100096, 32]⟩
abbrev S100000x32 : Shape := ⟨2, ![100000, 32]⟩
abbrev S1700000x32 : Shape := ⟨2, ![1700000, 32]⟩
abbrev S1x32 : Shape := ⟨2, ![1, 32]⟩
abbrev S1600000x1 : Shape := ⟨2, ![1600000, 1]⟩
abbrev S1600000x32 : Shape := ⟨2, ![1600000, 32]⟩
abbrev S5632x32 : Shape := ⟨2, ![5632, 32]⟩
abbrev S1605632x32 : Shape := ⟨2, ![1605632, 32]⟩
abbrev S1605632 : Shape := ⟨1, ![1605632]⟩
abbrev S8192x32 : Shape := ⟨2, ![8192, 32]⟩
abbrev S8192 : Shape := ⟨1, ![8192]⟩

abbrev nBuf : Space → Nat
  | .hbm => 101
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S100000, .i32⟩
  | .hbm, ⟨9, _⟩ => ⟨S1700000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .f32⟩
  | .hbm, ⟨48, _⟩ => ⟨S96x128, .f32⟩
  | .hbm, ⟨49, _⟩ => ⟨S100096x128, .f32⟩
  | .hbm, ⟨50, _⟩ => ⟨S32x100096, .f32⟩
  | .hbm, ⟨51, _⟩ => ⟨S100096x32, .f32⟩
  | .hbm, ⟨52, _⟩ => ⟨S100000x32, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x32, .f32⟩
  | .hbm, ⟨62, _⟩ => ⟨S1700000x1, .f32⟩
  | .hbm, ⟨63, _⟩ => ⟨S1700000x32, .f32⟩
  | .hbm, ⟨64, _⟩ => ⟨S1700000x32, .f32⟩
  | .hbm, ⟨65, _⟩ => ⟨S_, .f32⟩
  | .hbm, ⟨66, _⟩ => ⟨S100000x32, .f32⟩
  | .hbm, ⟨67, _⟩ => ⟨S1700000x1, .i32⟩
  | .hbm, ⟨68, _⟩ => ⟨S100000x32, .f32⟩
  | .hbm, ⟨69, _⟩ => ⟨S1x32, .f32⟩
  | .hbm, ⟨70, _⟩ => ⟨S100000x32, .f32⟩
  | .hbm, ⟨71, _⟩ => ⟨S100000x32, .f32⟩
  | .hbm, ⟨72, _⟩ => ⟨S_, .f32⟩
  | .hbm, ⟨73, _⟩ => ⟨S100000x32, .f32⟩
  | .hbm, ⟨74, _⟩ => ⟨S100000x32, .f32⟩
  | .hbm, ⟨75, _⟩ => ⟨S_, .i32⟩
  | .hbm, ⟨76, _⟩ => ⟨S1600000, .i32⟩
  | .hbm, ⟨77, _⟩ => ⟨S1600000, .i1⟩
  | .hbm, ⟨78, _⟩ => ⟨S_, .i32⟩
  | .hbm, ⟨79, _⟩ => ⟨S1600000, .i32⟩
  | .hbm, ⟨80, _⟩ => ⟨S1600000, .i32⟩
  | .hbm, ⟨81, _⟩ => ⟨S1600000, .i32⟩
  | .hbm, ⟨82, _⟩ => ⟨S1600000x1, .i32⟩
  | .hbm, ⟨83, _⟩ => ⟨S1600000x32, .f32⟩
  | .hbm, ⟨84, _⟩ => ⟨S_, .i32⟩
  | .hbm, ⟨85, _⟩ => ⟨S1600000, .i32⟩
  | .hbm, ⟨86, _⟩ => ⟨S1600000, .i1⟩
  | .hbm, ⟨87, _⟩ => ⟨S_, .i32⟩
  | .hbm, ⟨88, _⟩ => ⟨S1600000, .i32⟩
  | .hbm, ⟨89, _⟩ => ⟨S1600000, .i32⟩
  | .hbm, ⟨90, _⟩ => ⟨S1600000, .i32⟩
  | .hbm, ⟨91, _⟩ => ⟨S1600000x1, .i32⟩
  | .hbm, ⟨92, _⟩ => ⟨S1600000x32, .f32⟩
  | .hbm, ⟨93, _⟩ => ⟨S_, .f32⟩
  | .hbm, ⟨94, _⟩ => ⟨S5632x32, .f32⟩
  | .hbm, ⟨95, _⟩ => ⟨S1605632x32, .f32⟩
  | .hbm, ⟨96, _⟩ => ⟨S_, .f32⟩
  | .hbm, ⟨97, _⟩ => ⟨S5632x32, .f32⟩
  | .hbm, ⟨98, _⟩ => ⟨S1605632x32, .f32⟩
  | .hbm, ⟨99, _⟩ => ⟨S1605632, .f32⟩
  | .hbm, ⟨100, _⟩ => ⟨S1600000, .f32⟩
  | .local _ .vmem, ⟨0, _⟩ => ⟨S5888x128, .f32⟩
  | .local _ .vmem, ⟨1, _⟩ => ⟨S5888x128, .f32⟩
  | .local _ .vmem, ⟨2, _⟩ => ⟨S128x32, .f32⟩
  | .local _ .vmem, ⟨3, _⟩ => ⟨S32x5888, .f32⟩
  | .local _ .vmem, ⟨4, _⟩ => ⟨S32x5888, .f32⟩
  | .local _ .vmem, ⟨5, _⟩ => ⟨S8192x32, .f32⟩
  | .local _ .vmem, ⟨6, _⟩ => ⟨S8192x32, .f32⟩
  | .local _ .vmem, ⟨7, _⟩ => ⟨S8192x32, .f32⟩
  | .local _ .vmem, ⟨8, _⟩ => ⟨S8192x32, .f32⟩
  | .local _ .vmem, ⟨9, _⟩ => ⟨S8192, .f32⟩
  | .local _ .vmem, ⟨10, _⟩ => ⟨S8192, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_c_9 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_call1_cst : Ref sig .tc := ⟨.hbm, 72, rfl⟩
abbrev main_call1_v0 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_cst_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5888x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x5888 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![196], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S8192x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S96x128 : S_.BroadcastsInDim S96x128 (![] : Fin 0 → Fin S96x128.rank)
  concatenates_S100000x128_S96x128_S100096x128_d0 : Shape.Concatenates [S100000x128, S96x128] S100096x128 0
  inb_S5888x128_S5888x128_0_0 : ∀ a, (![0, 0] : Fin 2 → Nat) a + S5888x128.size a ≤ S5888x128.size a
  h_S5888x128 : 0 < S5888x128.numel
  shapeCasts_S5888x128_S5888x128 : S5888x128.ShapeCasts S5888x128
  inb_S128x32_S128x32_0_0 : ∀ a, (![0, 0] : Fin 2 → Nat) a + S128x32.size a ≤ S128x32.size a
  h_S128x32 : 0 < S128x32.numel
  transposes_S5888x32_p1_0_S32x5888 : S5888x32.Transposes [1, 0] S32x5888
  inb_S32x5888_S32x5888_0_0 : ∀ a, (![0, 0] : Fin 2 → Nat) a + S32x5888.size a ≤ S32x5888.size a
  h_S32x5888 : 0 < S32x5888.numel
  transposes_S32x100096_S100096x32_1_0 : S32x100096.Transposes [1, 0] S100096x32
  slices_S100096x32_S100000x32_0_0 : S100096x32.Slices ![0, 0] S100000x32
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S5632x32 : S_.BroadcastsInDim S5632x32 (![] : Fin 0 → Fin S5632x32.rank)
  concatenates_S1600000x32_S5632x32_S1605632x32_d0 : Shape.Concatenates [S1600000x32, S5632x32] S1605632x32 0
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  reduces_S8192x32_S8192 : S8192x32.Reduces [1] S8192
  inb_S8192_S8192_0 : ∀ a, (![0] : Fin 1 → Nat) a + S8192.size a ≤ S8192.size a
  h_S8192 : 0 < S8192.numel
  slices_S1605632_S1600000_0 : S1605632.Slices ![0] S1600000
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5888x128_S128x32_S5888x32_1_0_0_1_n_n_wf : DotDims.WF S5888x128 S128x32 S5888x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  gather_S100000x32_S1600000x1_S1600000x32_1_0_n_n_0_1_132_wf : GatherDims.WF S100000x32 S1600000x1 S1600000x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5888x128.size a ≤ S100096x128.size a
  hwx0_0 : ∀ i : grid0.Coords, EltTy.bits .f32 = 32 ∨ (Rect.block (s := S100096x128) S5888x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x5888.size a ≤ S32x100096.size a
  hwx0_2 : ∀ i : grid0.Coords, EltTy.bits .f32 = 32 ∨ (Rect.block (s := S32x100096) S32x5888.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x32.size a ≤ S1605632x32.size a
  hwx1_0 : ∀ i : grid1.Coords, EltTy.bits .f32 = 32 ∨ (Rect.block (s := S1605632x32) S8192x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x32.size a ≤ S1605632x32.size a
  hwx1_1 : ∀ i : grid1.Coords, EltTy.bits .f32 = 32 ∨ (Rect.block (s := S1605632x32) S8192x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192.size a ≤ S1605632.size a
  hwx1_2 : ∀ i : grid1.Coords, EltTy.bits .f32 = 32 ∨ (Rect.block (s := S1605632) S8192.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5888x128_S128x32_S5888x32_1_0_0_1_n_n : DotDims S5888x128 S128x32 S5888x32 where
  lhsContracting := [1]
  rhsContracting := [0]
  lhsNonContracting := [0]
  rhsNonContracting := [1]
  lhsBatch := []
  rhsBatch := []
  wf := dot_S5888x128_S128x32_S5888x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf

abbrev win0_0 : Pipeline.Window sig grid0 :=
  Pipeline.Window.ofSpec (Memref.whole main_v33) S5888x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S32x5888.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v69) S8192x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v71) S8192x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v72) S8192.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x32 : Shape := ⟨2, ![128, 32]⟩
abbrev S32 : Shape := ⟨1, ![32]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S1700000x32 : Shape := ⟨2, ![1700000, 32]⟩
abbrev S1x32 : Shape := ⟨2, ![1, 32]⟩
abbrev S1600000x1 : Shape := ⟨2, ![1600000, 1]⟩
abbrev S1600000x32 : Shape := ⟨2, ![1600000, 32]⟩

abbrev nBuf : Space → Nat
  | .hbm => 103
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x32, .f32⟩
  | .hbm, ⟨3, _⟩ => ⟨S32, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S100000x32, .f32⟩
  | .hbm, ⟨48, _⟩ => ⟨S_, .i32⟩
  | .hbm, ⟨49, _⟩ => ⟨S1700000, .i32⟩
  | .hbm, ⟨50, _⟩ => ⟨S1700000, .i1⟩
  | .hbm, ⟨51, _⟩ => ⟨S_, .i32⟩
  | .hbm, ⟨52, _⟩ => ⟨S1700000, .i32⟩
  | .hbm, ⟨53, _⟩ => ⟨S1700000, .i32⟩
  | .hbm, ⟨54, _⟩ => ⟨S1700000, .i32⟩
  | .hbm, ⟨55, _⟩ => ⟨S1700000x1, .i32⟩
  | .hbm, ⟨56, _⟩ => ⟨S1700000x32, .f32⟩
  | .hbm, ⟨57, _⟩ => ⟨S1700000x1, .f32⟩
  | .hbm, ⟨58, _⟩ => ⟨S1700000x32, .f32⟩
  | .hbm, ⟨59, _⟩ => ⟨S1700000x32, .f32⟩
  | .hbm, ⟨60, _⟩ => ⟨S_, .f32⟩
  | .hbm, ⟨61, _⟩ => ⟨S100000x32, .f32⟩
  | .hbm, ⟨62, _⟩ => ⟨S1700000x1, .i32⟩
  | .hbm, ⟨63, _⟩ => ⟨S100000x32, .f32⟩
  | .hbm, ⟨64, _⟩ => ⟨S1x32, .f32⟩
  | .hbm, ⟨65, _⟩ => ⟨S100000x32, .f32⟩
  | .hbm, ⟨66, _⟩ => ⟨S100000x32, .f32⟩
  | .hbm, ⟨67, _⟩ => ⟨S_, .f32⟩
  | .hbm, ⟨68, _⟩ => ⟨S100000x32, .f32⟩
  | .hbm, ⟨69, _⟩ => ⟨S100000x32, .f32⟩
  | .hbm, ⟨70, _⟩ => ⟨S1x1600000, .i32⟩
  | .hbm, ⟨71, _⟩ => ⟨S1600000, .i32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x32, .f32⟩
  | .hbm, ⟨81, _⟩ => ⟨S1x1600000, .i32⟩
  | .hbm, ⟨82, _⟩ => ⟨S1600000, .i32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x32, .f32⟩
  | .hbm, ⟨92, _⟩ => ⟨S1600000x32, .f32⟩
  | .hbm, ⟨93, _⟩ => ⟨S_, .f32⟩
  | .hbm, ⟨94, _⟩ => ⟨S1600000, .f32⟩
  | .hbm, ⟨95, _⟩ => ⟨S1600000, .f32⟩
  | .hbm, ⟨96, _⟩ => ⟨S1600000, .f32⟩
  | .hbm, ⟨97, _⟩ => ⟨S_, .f32⟩
  | .hbm, ⟨98, _⟩ => ⟨S1600000, .f32⟩
  | .hbm, ⟨99, _⟩ => ⟨S1600000, .f32⟩
  | .hbm, ⟨100, _⟩ => ⟨S_, .f32⟩
  | .hbm, ⟨101, _⟩ => ⟨S1600000, .f32⟩
  | .hbm, ⟨102, _⟩ => ⟨S1600000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_call0_v0 : Ref sig .tc := ⟨.hbm, 25, rfl⟩
abbrev main_call0_v1 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_10 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_12 : Ref sig .tc := ⟨.hbm, 83, rfl⟩
abbrev main_v61 : Ref sig .tc := ⟨.hbm, 84, rfl⟩
abbrev main_v62 : Ref sig .tc := ⟨.hbm, 85, rfl⟩
abbrev main_c_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_14 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_cst_16 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x32_S1600000_d1 : S1600000x32.ReducesTo [1] S1600000
  h_S_ : 0 < S_.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x32_S100000x32_1_0_0_1_n_n_wf : DotDims.WF S100000x128 S128x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  gather_S100000x32_S1600000x1_S1600000x32_1_0_n_n_0_1_132_wf : GatherDims.WF S100000x32 S1600000x1 S1600000x32 [1] [0] [] [0] [] 1 ![1, 32]

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf

class Facts : Prop extends Facts₀ where

variable [Facts]
-- ==== Proof.RefValue.lean ====
/-
  The reference's result as a function of the argument arrays, cut where the kernel's program cuts it.

  The reference computes h = x·W (one dot_general), then the graph-convolution encoder
      z = max (scatter-add over dst of (h[src] · norm) + b, 0),
  then for every edge e the logistic function of the inner product of rows src(e) and dst(e) of z, the logistic
  function spelt 1 / (1 + exp (-·)).  Here the encoder is named as ONE function `encode` of h (and of the edge list and
  the bias), so that a program which obtains h by another route can be compared with the reference by comparing h alone;
  and the result is read at an edge as the logistic function of that inner product.
-/
import proofs.«421589_j65000035058078_3_alg».proof.Proof.RefRun
import proofs.«421589_j65000035058078_3_alg».proof.Proof.RefRead
import Idealize.ShloMosaic.Lib.ValueIdx
import Idealize.ShloMosaic.Lib.IdealHost

noncomputable section

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.StableHlo
open Idealize.ShloMosaic.ValueIdx

variable {F : FTy → Type} [FloatOps F]

/-- The encoder after the projection: gather the rows of `h` at the sources (self-loops appended), scale each by its
    edge's normalisation, scatter-add them at the destinations, add the bias, clamp below at zero.  The index vectors and
    the normalisation are the reference's own stages of the edge list `x1`. -/
def encode (h : (⟨S100000x32, .f32⟩ : BufTy).Contents (Elt F)) (x1 : (⟨S2x1600000, .i32⟩ : BufTy).Contents (Elt F))
    (x3 : (⟨S32, .f32⟩ : BufTy).Contents (Elt F)) : (⟨S100000x32, .f32⟩ : BufTy).Contents (Elt F) :=
  maximumf
    (addf
      (Host.scatterAdd scatter_S100000x32_S1700000x1_S1700000x32_1_0_0_1 (val_main_v43 (F := F)) (val_main_v44 (F := F) x1)
        (mulf (Host.gather gather_S100000x32_S1700000x1_S1700000x32_1_0_n_n_0_1_132 h (val_main_v38 (F := F) x1))
          (val_main_v41 (F := F) x1)))
      (val_main_v47 (F := F) x3))
    (val_main_call1_v0 (F := F))

/-- The reference's encoded features are `encode` of its projection. -/
theorem val_main_v49_eq (x0 : (⟨S100000x128, .f32⟩ : BufTy).Contents (Elt F)) (x1 : (⟨S2x1600000, .i32⟩ : BufTy).Contents (Elt F))
    (x2 : (⟨S128x32, .f32⟩ : BufTy).Contents (Elt F)) (x3 : (⟨S32, .f32⟩ : BufTy).Contents (Elt F)) :
    val_main_v49 (F := F) x0 x1 x2 x3 = encode (val_main_v32 (F := F) x0 x2) x1 x3 := rfl

/-- The rows of the encoded features `z` at the edges' sources, and at their destinations. -/
def rowsSrc (z : (⟨S100000x32, .f32⟩ : BufTy).Contents (Elt F)) (x1 : (⟨S2x1600000, .i32⟩ : BufTy).Contents (Elt F)) :
    (⟨S1600000x32, .f32⟩ : BufTy).Contents (Elt F) :=
  Host.gather gather_S100000x32_S1600000x1_S1600000x32_1_0_n_n_0_1_132 z (val_main_v57 (F := F) x1)
def rowsDst (z : (⟨S100000x32, .f32⟩ : BufTy).Contents (Elt F)) (x1 : (⟨S2x1600000, .i32⟩ : BufTy).Contents (Elt F)) :
    (⟨S1600000x32, .f32⟩ : BufTy).Contents (Elt F) :=
  Host.gather gather_S100000x32_S1600000x1_S1600000x32_1_0_n_n_0_1_132 z (val_main_v66 (F := F) x1)

theorem val_main_v58_eq (x0 : (⟨S100000x128, .f32⟩ : BufTy).Contents (Elt F)) (x1 : (⟨S2x1600000, .i32⟩ : BufTy).Contents (Elt F))
    (x2 : (⟨S128x32, .f32⟩ : BufTy).Contents (Elt F)) (x3 : (⟨S32, .f32⟩ : BufTy).Contents (Elt F)) :
    val_main_v58 (F := F) x0 x1 x2 x3 = rowsSrc (encode (val_main_v32 (F := F) x0 x2) x1 x3) x1 := rfl
theorem val_main_v67_eq (x0 : (⟨S100000x128, .f32⟩ : BufTy).Contents (Elt F)) (x1 : (⟨S2x1600000, .i32⟩ : BufTy).Contents (Elt F))
    (x2 : (⟨S128x32, .f32⟩ : BufTy).Contents (Elt F)) (x3 : (⟨S32, .f32⟩ : BufTy).Contents (Elt F)) :
    val_main_v67 (F := F) x0 x1 x2 x3 = rowsDst (encode (val_main_v32 (F := F) x0 x2) x1 x3) x1 := rfl

/-- The reference's result at edge `e`: the logistic function of (0 + the inner product of the two gathered rows).  The
    reference spells the logistic function as 1 / (1 + exp (-y)); on the extended reals that expression IS the logistic
    function, at the infinities too. -/
theorem val_main_v75_at (x0 : (⟨S100000x128, .f32⟩ : BufTy).Contents (Elt Ideal)) (x1 : (⟨S2x1600000, .i32⟩ : BufTy).Contents (Elt Ideal))
    (x2 : (⟨S128x32, .f32⟩ : BufTy).Contents (Elt Ideal)) (x3 : (⟨S32, .f32⟩ : BufTy).Contents (Elt Ideal)) (e : Fin 1600000) :
    val_main_v75 (F := Ideal) x0 x1 x2 x3 (ix1 e)
      = Ideal.logistic (Ideal.ofBits .f32 0x00000000#32
          + ∑ j : Fin 32, val_main_v58 (F := Ideal) x0 x1 x2 x3 (ix2 e j) * val_main_v67 (F := Ideal) x0 x1 x2 x3 (ix2 e j)) := by
  rw [val_main_v75_apply, val_main_v74_apply, val_main_cst_16_apply, val_main_v73_apply, val_main_v72_apply,
    val_main_cst_15_apply, val_main_v71_apply, val_main_v70_apply, val_main_v69_apply, val_main_cst_14_apply]
  have hs : ∀ k : Fin 32, val_main_v68 (F := Ideal) x0 x1 x2 x3 (idx_main_v69 (ix1 e) k)
      = val_main_v58 (F := Ideal) x0 x1 x2 x3 (ix2 e k) * val_main_v67 (F := Ideal) x0 x1 x2 x3 (ix2 e k) := fun k => by
    have hi : idx_main_v69 (ix1 e) k = ix2 e k := funext fun a => Fin.ext (by match a with | ⟨0, _⟩ => rfl | ⟨1, _⟩ => rfl)
    rw [hi, val_main_v68_apply]; rfl
  simp only [hs]
  simp only [Ideal.ofBits_def, Ideal.hostDivf_def, Ideal.addf_def, Ideal.hostUnary_exp_def, Ideal.hostNegf_def, Ideal.negf_def,
    Ideal.ofBits_one_f32, Ideal.logistic]

end Cert.ReferenceIdeal.RefValue

end
-- ==== Proof.KHost.lean ====
/-
  The kernel program's host operations, read stretch by stretch as functions of what each stretch finds.

  Three stretches: the one before the first pallas_call (the edge list's index vectors and normalisation, and x padded with
  zero rows), the one between the two calls (the encoder applied to the transposed-back, un-padded projection), and the one
  before the second call (the encoded rows gathered at the edges' ends and padded with zero rows); then the closing slice.
  Every index vector and the normalisation are, term for term, the reference's own stages of the edge list, so each is
  stated as that stage; the encoder is the reference's `encode`.
-/
import proofs.«421589_j65000035058078_3_alg».proof.Proof.Gen.KernelIdeal.Frame
import proofs.«421589_j65000035058078_3_alg».proof.Proof.RefValue
import Idealize.ShloMosaic.Lib.StableHlo.Run

set_option maxRecDepth 16384

noncomputable section

namespace Cert.KernelIdeal.HostK

open Idealize.ShloMosaic Idealize.ShloMosaic.TcCoe Idealize.SL.Sem Idealize.ShloMosaic.StableHlo
open Cert.KernelIdeal Cert.KernelIdeal.Gen
open Cert.ReferenceIdeal.ReadP Cert.ReferenceIdeal.RefValue

variable {F : FTy → Type} [FloatOps F]

/-! ## The pieces that are the kernel program's own -/

/-- x with 96 zero rows appended. -/
def padX (x0 : (⟨S100000x128, .f32⟩ : BufTy).Contents (Elt F)) : (⟨S100096x128, .f32⟩ : BufTy).Contents (Elt F) :=
  concatenate S100096x128 0 [⟨S100000x128, x0⟩, ⟨S96x128, broadcastInDim S96x128 ![] bcast_S_S96x128 (constant S_ .f32 0x00000000#32)⟩]
    concatenates_S100000x128_S96x128_S100096x128_d0

/-- The first call's output transposed back, its first 100000 rows. -/
def unpadT (a : (⟨S32x100096, .f32⟩ : BufTy).Contents (Elt F)) : (⟨S100000x32, .f32⟩ : BufTy).Contents (Elt F) :=
  extractStridedSlice S100000x32 ![0, 0] (transpose S100096x32 [1, 0] a transposes_S32x100096_S100096x32_1_0) slices_S100096x32_S100000x32_0_0

/-- Gathered rows with 5632 zero rows appended. -/
def padRows (z : (⟨S1600000x32, .f32⟩ : BufTy).Contents (Elt F)) : (⟨S1605632x32, .f32⟩ : BufTy).Contents (Elt F) :=
  concatenate S1605632x32 0 [⟨S1600000x32, z⟩, ⟨S5632x32, broadcastInDim S5632x32 ![] bcast_S_S5632x32 (constant S_ .f32 0x00000000#32)⟩]
    concatenates_S1600000x32_S5632x32_S1605632x32_d0

/-- The first 1600000 entries. -/
def unpadE (a : (⟨S1605632, .f32⟩ : BufTy).Contents (Elt F)) : (⟨S1600000, .f32⟩ : BufTy).Contents (Elt F) :=
  extractStridedSlice S1600000 ![0] a slices_S1605632_S1600000_0

/-! ## Before the first call -/

/-- The contents after the three stretches before the first call, from contents `V`. -/
abbrev pre (V : Valuation τ sig (Elt F)) : Valuation τ sig (Elt F) :=
  StableHlo.after hostOps0_2 (StableHlo.after hostOps0_1 (StableHlo.after hostOps0 V))

theorem pre_v5 (V : Valuation τ sig (Elt F)) :
    (pre V (Proc.devRef .tc main_v5) : (⟨S1700000, .i32⟩ : BufTy).Contents (Elt F)) = val_main_v3 (F := F) (V (Proc.devRef .tc main_arg1)) := by
  dsimp only [pre, hostOps0, hostOps0_1, hostOps0_2]
  after_results
  rfl

theorem pre_v6 (V : Valuation τ sig (Elt F)) :
    (pre V (Proc.devRef .tc main_v6) : (⟨S1700000, .i32⟩ : BufTy).Contents (Elt F)) = val_main_v6 (F := F) (V (Proc.devRef .tc main_arg1)) := by
  dsimp only [pre, hostOps0, hostOps0_1, hostOps0_2]
  after_results
  rfl

theorem pre_v1 (V : Valuation τ sig (Elt F)) :
    (pre V (Proc.devRef .tc main_v1) : (⟨S1600000, .i32⟩ : BufTy).Contents (Elt F)) = val_main_v2 (F := F) (V (Proc.devRef .tc main_arg1)) := by
  dsimp only [pre, hostOps0, hostOps0_1, hostOps0_2]
  after_results
  rfl

theorem pre_v3 (V : Valuation τ sig (Elt F)) :
    (pre V (Proc.devRef .tc main_v3) : (⟨S1600000, .i32⟩ : BufTy).Contents (Elt F)) = val_main_v5 (F := F) (V (Proc.devRef .tc main_arg1)) := by
  dsimp only [pre, hostOps0, hostOps0_1, hostOps0_2]
  after_results
  rfl

set_option maxHeartbeats 4000000 in
/-- The symmetric normalisation of every edge (self-loops included) is the reference's. -/
theorem pre_v31 (V : Valuation τ sig (Elt F)) :
    (pre V (Proc.devRef .tc main_v31) : (⟨S1700000, .f32⟩ : BufTy).Contents (Elt F)) = val_main_v31 (F := F) (V (Proc.devRef .tc main_arg1)) := by
  dsimp only [pre, hostOps0, hostOps0_1, hostOps0_2]
  after_results_simp
  rfl

theorem pre_v33 (V : Valuation τ sig (Elt F)) :
    (pre V (Proc.devRef .tc main_v33) : (⟨S100096x128, .f32⟩ : BufTy).Contents (Elt F)) = padX (V (Proc.devRef .tc main_arg0)) := by
  dsimp only [pre, hostOps0, hostOps0_1, hostOps0_2]
  after_results
  rfl

theorem pre_arg2 (V : Valuation τ sig (Elt F)) : pre V (Proc.devRef .tc main_arg2) = V (Proc.devRef .tc main_arg2) := by
  dsimp only [pre, hostOps0, hostOps0_1, hostOps0_2]
  after_results

theorem pre_arg3 (V : Valuation τ sig (Elt F)) : pre V (Proc.devRef .tc main_arg3) = V (Proc.devRef .tc main_arg3) := by
  dsimp only [pre, hostOps0, hostOps0_1, hostOps0_2]
  after_results

/-! ## Between the two calls -/

/-- The contents after the three stretches between the calls, from contents `V`. -/
abbrev mid (V : Valuation τ sig (Elt F)) : Valuation τ sig (Elt F) :=
  StableHlo.after hostOps1_2 (StableHlo.after hostOps1_1 (StableHlo.after hostOps1 V))

set_option maxHeartbeats 4000000 in
/-- The second call's first input: the encoded features' rows at the edges' sources, padded — the encoder applied to the
    first call's output transposed back and un-padded, when the stretch finds the edge list's stages where the first
    stretch left them. -/
theorem mid_v69 (V : Valuation τ sig (Elt F)) (x1 : (⟨S2x1600000, .i32⟩ : BufTy).Contents (Elt F))
    (h5 : (V (Proc.devRef .tc main_v5) : (⟨S1700000, .i32⟩ : BufTy).Contents (Elt F)) = val_main_v3 (F := F) x1)
    (h6 : (V (Proc.devRef .tc main_v6) : (⟨S1700000, .i32⟩ : BufTy).Contents (Elt F)) = val_main_v6 (F := F) x1)
    (h31 : (V (Proc.devRef .tc main_v31) : (⟨S1700000, .f32⟩ : BufTy).Contents (Elt F)) = val_main_v31 (F := F) x1)
    (h1 : (V (Proc.devRef .tc main_v1) : (⟨S1600000, .i32⟩ : BufTy).Contents (Elt F)) = val_main_v2 (F := F) x1) :
    (mid V (Proc.devRef .tc main_v69) : (⟨S1605632x32, .f32⟩ : BufTy).Contents (Elt F))
      = padRows (rowsSrc (encode (unpadT (V (Proc.devRef .tc main_v34))) x1 (V (Proc.devRef .tc main_arg3))) x1) := by
  dsimp only [mid, hostOps1, hostOps1_1, hostOps1_2]
  after_results
  rw [h5, h6, h31, h1]
  rfl

set_option maxHeartbeats 4000000 in
/-- The second call's second input: the same at the edges' destinations. -/
theorem mid_v71 (V : Valuation τ sig (Elt F)) (x1 : (⟨S2x1600000, .i32⟩ : BufTy).Contents (Elt F))
    (h5 : (V (Proc.devRef .tc main_v5) : (⟨S1700000, .i32⟩ : BufTy).Contents (Elt F)) = val_main_v3 (F := F) x1)
    (h6 : (V (Proc.devRef .tc main_v6) : (⟨S1700000, .i32⟩ : BufTy).Contents (Elt F)) = val_main_v6 (F := F) x1)
    (h31 : (V (Proc.devRef .tc main_v31) : (⟨S1700000, .f32⟩ : BufTy).Contents (Elt F)) = val_main_v31 (F := F) x1)
    (h3 : (V (Proc.devRef .tc main_v3) : (⟨S1600000, .i32⟩ : BufTy).Contents (Elt F)) = val_main_v5 (F := F) x1) :
    (mid V (Proc.devRef .tc main_v71) : (⟨S1605632x32, .f32⟩ : BufTy).Contents (Elt F))
      = padRows (rowsDst (encode (unpadT (V (Proc.devRef .tc main_v34))) x1 (V (Proc.devRef .tc main_arg3))) x1) := by
  dsimp only [mid, hostOps1, hostOps1_1, hostOps1_2]
  after_results
  rw [h5, h6, h31, h3]
  rfl

/-! ## After the second call -/

theorem post_v73 (V : Valuation τ sig (Elt F)) :
    (StableHlo.after hostOps2 V (Proc.devRef .tc main_v73) : (⟨S1600000, .f32⟩ : BufTy).Contents (Elt F)) = unpadE (V (Proc.devRef .tc main_v72)) := by
  dsimp only [hostOps2]
  after_results
  rfl

end Cert.KernelIdeal.HostK

end
-- ==== Proof.ProjValue.lean ====
/-
  The first pallas_call as a value: after its seventeen points the output array holds, at (f, n), the sum over k of
  row n of the zero-padded x against column f of W — the projection x·W, transposed.
-/
import proofs.«421589_j65000035058078_3_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Proj

open Idealize.ShloMosaic Idealize.ShloMosaic.TcCoe Idealize.SL.Sem
open Cert.KernelIdeal Cert.KernelIdeal.Gen
open Idealize.ShloMosaic.ValueIdx

/-- Entry (f, n) of the transposed projection: the sum over k of xp (n, k) · w (k, f). -/
def projT (xp : S100096x128.Idx → EReal) (w : S128x32.Idx → EReal) : S32x100096.Idx → EReal :=
  fun i => ∑ k : Fin 128, xp (ix2 (i 1) k) * w (ix2 k (i 0))

/-! ## The body's arithmetic at one entry -/

/-- The left operand's row is the output's row … -/
theorem lhs_row (i : S5888x32.Idx) (q : dot_S5888x128_S128x32_S5888x32_1_0_0_1_n_n.contr.Idx) :
    (dot_S5888x128_S128x32_S5888x32_1_0_0_1_n_n.lhsIdx i q 0).val = (i 0).val := by
  unfold DotDims.lhsIdx
  rw [dif_neg (show ¬(0 : Fin S5888x128.rank) ∈ dot_S5888x128_S128x32_S5888x32_1_0_0_1_n_n.lhsBatch by decide),
    dif_pos (show (0 : Fin S5888x128.rank) ∈ dot_S5888x128_S128x32_S5888x32_1_0_0_1_n_n.lhsNonContracting by decide)]
  rfl
/-- … its column the contraction position … -/
theorem lhs_col (i : S5888x32.Idx) (q : dot_S5888x128_S128x32_S5888x32_1_0_0_1_n_n.contr.Idx) :
    (dot_S5888x128_S128x32_S5888x32_1_0_0_1_n_n.lhsIdx i q 1).val = (q ⟨0, by decide⟩).val :=
  dot_S5888x128_S128x32_S5888x32_1_0_0_1_n_n.lhsIdx_val_of_single rfl i q
/-- … the right operand's row the contraction position … -/
theorem rhs_row (i : S5888x32.Idx) (q : dot_S5888x128_S128x32_S5888x32_1_0_0_1_n_n.contr.Idx) :
    (dot_S5888x128_S128x32_S5888x32_1_0_0_1_n_n.rhsIdx i q 0).val = (q ⟨0, by decide⟩).val :=
  dot_S5888x128_S128x32_S5888x32_1_0_0_1_n_n.rhsIdx_val_of_single rfl i q
/-- … and its column the output's column. -/
theorem rhs_col (i : S5888x32.Idx) (q : dot_S5888x128_S128x32_S5888x32_1_0_0_1_n_n.contr.Idx) :
    (dot_S5888x128_S128x32_S5888x32_1_0_0_1_n_n.rhsIdx i q 1).val = (i 1).val := by
  unfold DotDims.rhsIdx
  rw [dif_neg (show ¬(1 : Fin S128x32.rank) ∈ dot_S5888x128_S128x32_S5888x32_1_0_0_1_n_n.rhsBatch by decide),
    dif_pos (show (1 : Fin S128x32.rank) ∈ dot_S5888x128_S128x32_S5888x32_1_0_0_1_n_n.rhsNonContracting by decide)]
  rfl

/-- The product into the zero accumulator, at row r and column f: the sum over k of a (r, k) · b (k, f). -/
theorem matmul_entry (a : FVec Ideal S5888x128 .f32) (b : FVec Ideal S128x32 .f32) (r : Fin 5888) (f : Fin 32) :
    matmul dot_S5888x128_S128x32_S5888x32_1_0_0_1_n_n none a b (constant (F := Ideal) S5888x32 .f32 0x00000000#32) (ix2 r f)
      = ∑ k : Fin 128, a (ix2 r k) * b (ix2 k f) := by
  show FloatOps.matmul dot_S5888x128_S128x32_S5888x32_1_0_0_1_n_n none a b (constant (F := Ideal) S5888x32 .f32 0x00000000#32) (ix2 r f) = _
  rw [Ideal.matmul_constant_zero_apply, ← Equiv.sum_comp (contrEquiv1 dot_S5888x128_S128x32_S5888x32_1_0_0_1_n_n 128 rfl rfl).symm]
  refine Finset.sum_congr rfl fun k _ => ?_
  have hk := contrEquiv1_symm_val dot_S5888x128_S128x32_S5888x32_1_0_0_1_n_n 128 rfl rfl k
  have el : dot_S5888x128_S128x32_S5888x32_1_0_0_1_n_n.lhsIdx (ix2 r f) ((contrEquiv1 dot_S5888x128_S128x32_S5888x32_1_0_0_1_n_n 128 rfl rfl).symm k) = ix2 r k :=
    funext fun x => Fin.ext (by
      match x with
      | ⟨0, _⟩ => exact lhs_row _ _
      | ⟨1, _⟩ => exact (lhs_col _ _).trans hk)
  have er : dot_S5888x128_S128x32_S5888x32_1_0_0_1_n_n.rhsIdx (ix2 r f) ((contrEquiv1 dot_S5888x128_S128x32_S5888x32_1_0_0_1_n_n 128 rfl rfl).symm k) = ix2 k f :=
    funext fun x => Fin.ext (by
      match x with
      | ⟨0, _⟩ => exact (rhs_row _ _).trans hk
      | ⟨1, _⟩ => exact rhs_col _ _)
  rw [el, er]

/-- The body's stored value at (f, r): the product transposed, so the sum over k of x0 (r, k) · x1 (k, f). -/
theorem pay_entry (x0 : Vec Ideal S5888x128 .f32) (x1 : Vec Ideal S128x32 .f32) (f : Fin 32) (r : Fin 5888) :
    k0_pay1 x0 x1 (ix2 f r) = ∑ k : Fin 128, x0 (ix2 r k) * x1 (ix2 k f) := by
  unfold k0_pay1
  dsimp only
  rw [transpose_apply [1, 0] _ transposes_S5888x32_p1_0_S32x5888 (ix2 f r) (ix2 r f)
    (fun b => match b with | ⟨0, _⟩ => rfl | ⟨1, _⟩ => rfl)]
  rw [shapeCast_self, matmul_entry]

/-- A block of the output all of whose entries are the sums the body computes is the body's stored value. -/
theorem pay_eq (x0 : Vec Ideal S5888x128 .f32) (x1 : Vec Ideal S128x32 .f32) (G : S32x5888.Idx → EReal)
    (h : ∀ (f : Fin 32) (r : Fin 5888), G (ix2 f r) = ∑ k : Fin 128, x0 (ix2 r k) * x1 (ix2 k f)) :
    k0_pay1 x0 x1 = G := by
  funext j
  obtain ⟨f, r, rfl⟩ : ∃ (f : Fin 32) (r : Fin 5888), j = ix2 f r := ⟨j 0, j 1, eq_ix2 j⟩
  rw [pay_entry, h]

/-! ## From the blocks to the array -/

/-- The body loads and stores each buffer whole: the offset on both axes is zero. -/
theorem hz : (![0, 0] : Fin 2 → Nat) = fun _ => 0 := funext fun a => by fin_cases a <;> rfl

/-- The three windows' block indices at a point, decided over the grid: the rows of x move with the point, the columns
    of the output move with the point, everything else stays at zero. -/
theorem idx_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = t.val :=
  (by decide +kernel : ∀ t : Fin grid0.N, _)

/-- An index of the output array lies in point t's block iff each coordinate is in the block's range on its axis. -/
theorem mem_blk (t : Fin cfg0.N) (i : S32x100096.Idx) :
    i ∈ ((cfg0.win 2).blk t).view.set ↔ ∀ a : Fin 2, win0_2.index t a * S32x5888.size a ≤ (i a).val
      ∧ (i a).val < win0_2.index t a * S32x5888.size a + S32x5888.size a := by
  show i ∈ ((View.whole main_v34).slice (win0_2.rect t)).set ↔ _
  rw [View.set_slice_whole, Rect.mem_set_unit]
  exact Iff.rfl

/-- The seventeen blocks of 5888 columns fill the 100096 columns: column n lies in the block of point n / 5888, which
    writes back. -/
theorem cover (i : S32x100096.Idx) :
    ∃ t : Fin cfg0.N, (cfg0.win 2).flush t = true ∧ i ∈ ((cfg0.win 2).blk t).view.set := by
  have hN : grid0.N = 17 := N_0
  have h0 : (i 0).val < 32 := idx2_lt0 i
  have h1 : (i 1).val < 100096 := idx2_lt1 i
  obtain ⟨t, ht⟩ : ∃ t : Fin cfg0.N, t.val = (i 1).val / 5888 :=
    ⟨⟨(i 1).val / 5888, by show (i 1).val / 5888 < grid0.N; rw [hN]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 32 ≤ (i 0).val ∧ (i 0).val < win0_2.index t (0 : Fin 2) * 32 + 32
    omega
  | ⟨1, _⟩ =>
    show win0_2.index t (1 : Fin 2) * 5888 ≤ (i 1).val ∧ (i 1).val < win0_2.index t (1 : Fin 2) * 5888 + 5888
    omega

variable (V : (c : Dev nD) → (b : Ref sig .tc) → Buf (Elt Ideal) ((c : Thread nD τ).loc b))

/-- Row r of the block of x at point t is row t · 5888 + r of the array. -/
theorem x_blk (c : Dev nD) (t : Fin cfg0.N) (r : Fin 5888) (k : Fin 128) (n : Fin 100096)
    (hn : n.val = t.val * 5888 + r.val) :
    (iblk0 V c 0 t : Vec Ideal S5888x128 .f32) (ix2 r k) = (V c main_v33 : S100096x128.Idx → EReal) (ix2 n k) := by
  obtain ⟨e0, e1, -⟩ := idx_facts t
  unfold iblk0
  rw [View.read_apply]
  show V c main_v33 _ = V c main_v33 _
  congr 1
  funext a
  apply Fin.ext
  match a with
  | ⟨0, _⟩ => show win0_0.index t (0 : Fin 2) * 5888 + 1 * r.val = n.val; omega
  | ⟨1, _⟩ => show win0_0.index t (1 : Fin 2) * 128 + 1 * k.val = k.val; omega

/-- The block of W at every point is the whole of W. -/
theorem w_blk (c : Dev nD) (t : Fin cfg0.N) (k : Fin 128) (f : Fin 32) :
    (iblk0 V c 1 t : Vec Ideal S128x32 .f32) (ix2 k f) = (V c main_arg2 : S128x32.Idx → EReal) (ix2 k f) := by
  obtain ⟨-, -, e2, e3, -⟩ := idx_facts t
  unfold iblk0
  rw [View.read_apply]
  show V c main_arg2 _ = V c main_arg2 _
  congr 1
  funext a
  apply Fin.ext
  match a with
  | ⟨0, _⟩ => show win0_1.index t (0 : Fin 2) * 128 + 1 * k.val = k.val; omega
  | ⟨1, _⟩ => show win0_1.index t (1 : Fin 2) * 32 + 1 * f.val = f.val; omega

/-- Column r of the output's block at point t is column t · 5888 + r of the array. -/
theorem out_emb (t : Fin cfg0.N) (f : Fin 32) (r : Fin 5888) (n : Fin 100096) (hn : n.val = t.val * 5888 + r.val) :
    (((cfg0.win 2).blk t).view.emb (ix2 f r) : S32x100096.Idx) = ix2 f n := by
  obtain ⟨-, -, -, -, e4, e5⟩ := idx_facts t
  funext a
  apply Fin.ext
  match a with
  | ⟨0, _⟩ => show win0_2.index t (0 : Fin 2) * 32 + 1 * f.val = f.val; omega
  | ⟨1, _⟩ => show win0_2.index t (1 : Fin 2) * 5888 + 1 * r.val = n.val; omega

/-- What point t writes back is block t of the transposed projection of the two arrays the region reads. -/
theorem flushed_eq (c : Dev nD) (t : Fin cfg0.N) :
    (dat0 (F := Ideal) V c).flushed 2 t
      = ((cfg0.win 2).blk t).view.read (Elt Ideal) (projT (V c main_v33) (V c main_arg2)) := by
  show (cfg0.win 2).cut (grid0.coords t) ((dat0 (F := Ideal) V c).after 2 t) = _
  rw [after0_2]
  unfold out0_2
  rw [View.canon_unit_zero hz]
  simp only [View.ld_unit_zero (S := S5888x128) hz, View.ld_unit_zero (S := S128x32) hz]
  show k0_pay1 (iblk0 V c 0 t) (iblk0 V c 1 t) = _
  refine pay_eq _ _ _ (fun f r => ?_)
  have hN : grid0.N = 17 := N_0
  have ht : t.val < 17 := hN ▸ t.isLt
  have hr : t.val * 5888 + r.val < 100096 := by have := r.isLt; omega
  rw [View.read_apply, out_emb t f r ⟨t.val * 5888 + r.val, hr⟩ rfl]
  unfold projT
  refine Finset.sum_congr rfl fun k _ => ?_
  rw [x_blk V c t r k ⟨t.val * 5888 + r.val, hr⟩ rfl, w_blk V c t k f]

/-- The output array of the first pallas_call, after all its points, from whatever the region finds in its two input
    arrays. -/
theorem arr0 (c : Dev nD) :
    (dat0 (F := Ideal) V c).arrAt 2 cfg0.N = projT (V c main_v33) (V c main_arg2) := by
  exact (dat0 (F := Ideal) V c).arrAt_eq_of_cover 2 (projT (V c main_v33) (V c main_arg2))
    (fun t _ => flushed_eq V c t) cover

end Cert.KernelIdeal.Proj

end
-- ==== Proof.DecodeValue.lean ====
/-
  The second pallas_call as a value: after its 196 points the output array holds, at edge e, the logistic function of
  the inner product of row e of its two input arrays.
-/
import proofs.«421589_j65000035058078_3_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Decode

open Idealize.ShloMosaic Idealize.ShloMosaic.TcCoe Idealize.SL.Sem
open Cert.KernelIdeal Cert.KernelIdeal.Gen
open Idealize.ShloMosaic.ValueIdx

/-- Entry e of the decoded scores: logistic of (0 + the sum over j of zs (e, j) · zd (e, j)). -/
def score (zs zd : S1605632x32.Idx → EReal) : S1605632.Idx → EReal :=
  fun e => Ideal.logistic (Ideal.ofBits .f32 0x00000000#32 + ∑ j : Fin 32, zs (ix2 (e 0) j) * zd (ix2 (e 0) j))

/-- Putting lane k back into row r of the reduced shape gives the block coordinate (r, k). -/
theorem lift_row (h : S8192x32.Reduces [1] S8192) (r : Fin 8192) (k : Fin 32) :
    h.lift (ix1 r) k = ix2 r k := by
  funext c; apply Fin.ext
  match c with
  | ⟨0, _⟩ => rfl
  | ⟨1, _⟩ => rfl

/-- The lane sum of the reduction, read at row r: the sum over the 32 lanes of the source at (r, j). The reduction's
    starting word is the neutral zero word, which the sum does not see. -/
theorem rowsum_at (w : FVec Ideal S8192x32 .f32) (h : S8192x32.Reduces [1] S8192) (hφ : FKind.Formats .f32)
    (hacc : (0x00000000#32 : BitVec 32) = 0x00000000#32) (r : Fin 8192) :
    multiReduction (F := Ideal) .add [1] S8192 w 0x00000000#32 h hφ hacc (ix1 r) = ∑ j : Fin 32, w (ix2 r j) := by
  refine (Ideal.multiReduction_add_single w 0x00000000#32 h hφ hacc (ix1 r)).trans ?_
  exact Finset.sum_congr rfl (fun k _ => congrArg w (lift_row h r k))

/-- The body's arithmetic at one output coordinate: the two loaded blocks multiplied entry by entry, the 32 lanes of
    row r summed from the zero word, and the logistic function of that sum. -/
theorem pay_at (x0 x1 : Vec Ideal S8192x32 .f32) (r : Fin 8192) :
    k1_pay1 (F := Ideal) x0 x1 (ix1 r)
      = Ideal.logistic (Ideal.ofBits .f32 0x00000000#32 + ∑ j : Fin 32, x0 (ix2 r j) * x1 (ix2 r j)) := by
  unfold k1_pay1
  rw [shapeCast_self, shapeCast_self]
  show Ideal.logistic (multiReduction (F := Ideal) .add [1] S8192 (mulf x0 x1) 0x00000000#32 reduces_S8192x32_S8192 _ _ (ix1 r)) = _
  rw [rowsum_at, Ideal.ofBits_zero_f32, zero_add]
  rfl

/-- The zero offsets of the body's whole-buffer accesses, however they are spelt. -/
theorem off1_zero : (![0] : Fin 1 → Nat) = fun _ => 0 := funext fun a => by fin_cases a; rfl
theorem off2_zero : (![0, 0] : Fin 2 → Nat) = fun _ => 0 := funext fun a => by fin_cases a <;> rfl

/-- The block indices over the 196 grid points: both inputs move with the output along the rows and stay at lane
    block 0, and the output's block index is the point's number. -/
theorem blk_index : ∀ t : Fin cfg1.N, win1_0.index t (0 : Fin 2) = win1_2.index t (0 : Fin 1)
    ∧ win1_0.index t (1 : Fin 2) = 0
    ∧ win1_1.index t (0 : Fin 2) = win1_2.index t (0 : Fin 1)
    ∧ win1_1.index t (1 : Fin 2) = 0
    ∧ win1_2.index t (0 : Fin 1) = t.val :=
  (by decide +kernel : ∀ t : Fin grid1.N, _)

variable (V : (c : Dev nD) → (b : Ref sig .tc) → Buf (Elt Ideal) ((c : Thread nD τ).loc b))

/-- The row of the output array that coordinate r of point t's output block is. -/
abbrev rowOf (t : Fin cfg1.N) (r : Fin 8192) : Fin 1605632 :=
  (((cfg1.win 2).blk t).view.emb (ix1 r) : S1605632.Idx) 0

/-- Entry (r, j) of the first input's block at point t is entry (row, j) of its array, the row being the one
    coordinate r of the output block is written to: the block starts at row (block index) · 8192, lane 0. -/
theorem zs_blk (c : Dev nD) (t : Fin cfg1.N) (r : Fin 8192) (j : Fin 32) :
    (iblk1 (F := Ideal) V c 0 t : S8192x32.Idx → EReal) (ix2 r j) = V c main_v69 (ix2 (rowOf t r) j) := by
  obtain ⟨e0, e1, e2, e3, e4⟩ := blk_index t
  unfold iblk1
  rw [View.read_apply]
  show V c main_v69 (((cfg1.win 0).blk t).view.emb (ix2 r j)) = V c main_v69 (ix2 (rowOf t r) j)
  congr 1
  funext a; apply Fin.ext
  match a with
  | ⟨0, _⟩ => show win1_0.index t (0 : Fin 2) * 8192 + 1 * r.val = win1_2.index t (0 : Fin 1) * 8192 + 1 * r.val; rw [e0]
  | ⟨1, _⟩ => show win1_0.index t (1 : Fin 2) * 32 + 1 * j.val = j.val; rw [e1]; omega

/-- The same for the second input. -/
theorem zd_blk (c : Dev nD) (t : Fin cfg1.N) (r : Fin 8192) (j : Fin 32) :
    (iblk1 (F := Ideal) V c 1 t : S8192x32.Idx → EReal) (ix2 r j) = V c main_v71 (ix2 (rowOf t r) j) := by
  obtain ⟨e0, e1, e2, e3, e4⟩ := blk_index t
  unfold iblk1
  rw [View.read_apply]
  show V c main_v71 (((cfg1.win 1).blk t).view.emb (ix2 r j)) = V c main_v71 (ix2 (rowOf t r) j)
  congr 1
  funext a; apply Fin.ext
  match a with
  | ⟨0, _⟩ => show win1_1.index t (0 : Fin 2) * 8192 + 1 * r.val = win1_2.index t (0 : Fin 1) * 8192 + 1 * r.val; rw [e2]
  | ⟨1, _⟩ => show win1_1.index t (1 : Fin 2) * 32 + 1 * j.val = j.val; rw [e3]; omega

/-- What point t writes back is block t of the scores of the two arrays the region reads. -/
theorem flushed_score (c : Dev nD) (t : Fin cfg1.N) :
    (dat1 (F := Ideal) V c).flushed 2 t
      = ((cfg1.win 2).blk t).view.read (Elt Ideal) (score (V c main_v69) (V c main_v71)) := by
  show (cfg1.win 2).cut (grid1.coords t) ((dat1 V c).after 2 t) = _
  rw [after1_2]
  unfold out1_2
  rw [View.canon_unit_zero off1_zero]
  simp only [View.ld_unit_zero (S := S8192x32) off2_zero]
  funext y
  obtain ⟨r, rfl⟩ : ∃ r : Fin 8192, y = ix1 r := ⟨y 0, eq_ix1 y⟩
  show k1_pay1 (F := Ideal) (iblk1 V c 0 t) (iblk1 V c 1 t) (ix1 r)
    = score (V c main_v69) (V c main_v71) (((cfg1.win 2).blk t).view.emb (ix1 r))
  rw [pay_at]
  unfold score
  simp only [zs_blk, zd_blk]

/-- An entry of the output array is in point t's block iff it is one of the 8192 entries from (block index) · 8192. -/
theorem mem_blk (t : Fin cfg1.N) (i : S1605632.Idx) :
    i ∈ ((cfg1.win 2).blk t).view.set
      ↔ ∀ a : Fin 1, win1_2.index t a * S8192.size a ≤ (i a).val ∧ (i a).val < win1_2.index t a * S8192.size a + S8192.size a := by
  show i ∈ ((View.whole main_v72).slice (win1_2.rect t)).set ↔ _
  rw [View.set_slice_whole, Rect.mem_set_unit]
  exact Iff.rfl

/-- Every entry e of the output array lies in the block of point e / 8192, which is written back:
    1605632 = 196 · 8192. -/
theorem covered (i : S1605632.Idx) :
    ∃ t : Fin cfg1.N, (cfg1.win 2).flush t = true ∧ i ∈ ((cfg1.win 2).blk t).view.set := by
  have hi : (i 0).val < 1605632 := (i 0).isLt
  have hN : cfg1.N = 196 := by decide
  refine ⟨⟨(i 0).val / 8192, by rw [hN]; omega⟩, flush1_2 _, ?_⟩
  rw [mem_blk]
  intro a
  obtain ⟨-, -, -, -, e4⟩ := blk_index ⟨(i 0).val / 8192, by rw [hN]; omega⟩
  match a with
  | ⟨0, _⟩ =>
    show win1_2.index _ (0 : Fin 1) * 8192 ≤ (i 0).val ∧ (i 0).val < win1_2.index _ (0 : Fin 1) * 8192 + 8192
    rw [e4]
    show (i 0).val / 8192 * 8192 ≤ (i 0).val ∧ (i 0).val < (i 0).val / 8192 * 8192 + 8192
    omega

/-- The output array of the second pallas_call, after all its points, from whatever the region finds in its two input
    arrays. -/
theorem arr1 (c : Dev nD) :
    (dat1 (F := Ideal) V c).arrAt 2 cfg1.N = score (V c main_v69) (V c main_v71) :=
  (dat1 (F := Ideal) V c).arrAt_eq_of_cover 2 (score (V c main_v69) (V c main_v71))
    (fun t _ => flushed_score V c t) covered

end Cert.KernelIdeal.Decode

end
-- ==== Proof.KBridge.lean ====
/-
  The two programs compute one function.

  (1) The projection.  The kernel pads x with zero rows, multiplies by W block by block, stores the product transposed, and
      the host transposes it back and drops the padding rows: entry (n, f), for n < 100000, is Σ_k x(n,k)·W(k,f) — the
      reference's dot_general, term for term (the padding rows are never read).
  (2) The decoding.  The kernel pads the gathered rows with zero rows, computes logistic (0 + Σ_j zs(e,j)·zd(e,j)) for every
      padded edge, and the host drops the padding edges: entry e, for e < 1600000, reads only un-padded rows — the reference's
      result at e, whose 1 / (1 + exp (-y)) is the logistic function on the extended reals.
  Between the two, both programs apply the same encoder to the same projection.
-/
import proofs.«421589_j65000035058078_3_alg».proof.Proof.KHost
import proofs.«421589_j65000035058078_3_alg».proof.Proof.ProjValue
import proofs.«421589_j65000035058078_3_alg».proof.Proof.DecodeValue
import proofs.«421589_j65000035058078_3_alg».proof.Proof.RefValue
import Idealize.ShloMosaic.Lib.Pipeline.Value
import Idealize.ShloMosaic.Lib.ValueIdx

set_option maxRecDepth 16384

noncomputable section

namespace Cert.KernelIdeal.Bridge

open Idealize.ShloMosaic Idealize.ShloMosaic.TcCoe Idealize.SL.Sem
open Cert.KernelIdeal Cert.KernelIdeal.Gen Cert.KernelIdeal.HostK
open Cert.KernelIdeal.Proj Cert.KernelIdeal.Decode
open Cert.ReferenceIdeal.ReadP Cert.ReferenceIdeal.RefValue
open Idealize.ShloMosaic.ValueIdx

/-- A row of the padded x below 100000 is the row of x. -/
theorem padX_apply (x0 : (⟨S100000x128, .f32⟩ : BufTy).Contents (Elt Ideal)) (p : Fin 100000) (k : Fin 128) :
    padX x0 (ix2 (⟨p.val, by have := p.isLt; omega⟩ : Fin 100096) k) = x0 (ix2 p k) := by
  unfold padX
  exact concatenate_pair_apply_left (0 : Fin S100096x128.rank) x0 _ concatenates_S100000x128_S96x128_S100096x128_d0 _ rfl (ix2 p k)
    (fun b => by match b with | ⟨0, _⟩ => rfl | ⟨1, _⟩ => rfl)

/-- (1): the kernel's projection, transposed back and un-padded, is the reference's. -/
theorem proj_eq (x0 : (⟨S100000x128, .f32⟩ : BufTy).Contents (Elt Ideal)) (x2 : (⟨S128x32, .f32⟩ : BufTy).Contents (Elt Ideal)) :
    unpadT (projT (padX x0) x2) = val_main_v32 (F := Ideal) x0 x2 := by
  funext i
  obtain ⟨p, q, rfl⟩ : ∃ (p : Fin 100000) (q : Fin 32), i = ix2 p q := ⟨i 0, i 1, eq_ix2 i⟩
  have hp : p.val < 100096 := by have := p.isLt; omega
  unfold unpadT
  rw [extractStridedSlice_apply ![0, 0] _ slices_S100096x32_S100000x32_0_0 (ix2 p q) (ix2 (⟨p.val, hp⟩ : Fin 100096) q)
    (fun a => by match a with | ⟨0, _⟩ => show p.val = 0 + p.val; omega | ⟨1, _⟩ => show q.val = 0 + q.val; omega)]
  rw [transpose_apply [1, 0] _ transposes_S32x100096_S100096x32_1_0 (ix2 (⟨p.val, hp⟩ : Fin 100096) q) (ix2 q (⟨p.val, hp⟩ : Fin 100096))
    (fun b => by match b with | ⟨0, _⟩ => rfl | ⟨1, _⟩ => rfl)]
  rw [val_main_v32_apply]
  unfold projT
  refine Finset.sum_congr rfl fun k _ => ?_
  have hl : lidx_main_v32 (ix2 p q) k = ix2 p k := funext fun a => Fin.ext (by match a with | ⟨0, _⟩ => rfl | ⟨1, _⟩ => rfl)
  have hr : ridx_main_v32 (ix2 p q) k = ix2 k q := funext fun a => Fin.ext (by match a with | ⟨0, _⟩ => rfl | ⟨1, _⟩ => rfl)
  rw [hl, hr]
  exact congrArg (· * x2 (ix2 k q)) (padX_apply x0 p k)

/-- A padded row below 1600000 is the row. -/
theorem padRows_apply (z : (⟨S1600000x32, .f32⟩ : BufTy).Contents (Elt Ideal)) (e : Fin 1600000) (j : Fin 32) :
    padRows z (ix2 (⟨e.val, by have := e.isLt; omega⟩ : Fin 1605632) j) = z (ix2 e j) := by
  unfold padRows
  exact concatenate_pair_apply_left (0 : Fin S1605632x32.rank) z _ concatenates_S1600000x32_S5632x32_S1605632x32_d0 _ rfl (ix2 e j)
    (fun b => by match b with | ⟨0, _⟩ => rfl | ⟨1, _⟩ => rfl)

/-- (2): the kernel's scores of the padded rows, un-padded, are the logistic function of each edge's inner product. -/
theorem unpadE_score (zs zd : (⟨S1600000x32, .f32⟩ : BufTy).Contents (Elt Ideal)) (e : Fin 1600000) :
    unpadE (F := Ideal) (score (padRows zs) (padRows zd)) (ix1 e)
      = Ideal.logistic (Ideal.ofBits .f32 0x00000000#32 + ∑ j : Fin 32, zs (ix2 e j) * zd (ix2 e j)) := by
  have he : e.val < 1605632 := by have := e.isLt; omega
  unfold unpadE
  rw [extractStridedSlice_apply ![0] _ slices_S1605632_S1600000_0 (ix1 e) (ix1 (⟨e.val, he⟩ : Fin 1605632))
    (fun a => by match a with | ⟨0, _⟩ => show e.val = 0 + e.val; omega)]
  unfold score
  refine congrArg (fun s => Ideal.logistic (Ideal.ofBits .f32 0x00000000#32 + s)) (Finset.sum_congr rfl fun j _ => ?_)
  show padRows zs (ix2 (⟨e.val, he⟩ : Fin 1605632) j) * padRows zd (ix2 (⟨e.val, he⟩ : Fin 1605632) j) = _
  rw [padRows_apply zs e j, padRows_apply zd e j]

/-- The whole: the kernel's composed term of the argument arrays is the reference's result. -/
theorem result_eq (x0 : (⟨S100000x128, .f32⟩ : BufTy).Contents (Elt Ideal)) (x1 : (⟨S2x1600000, .i32⟩ : BufTy).Contents (Elt Ideal))
    (x2 : (⟨S128x32, .f32⟩ : BufTy).Contents (Elt Ideal)) (x3 : (⟨S32, .f32⟩ : BufTy).Contents (Elt Ideal)) :
    unpadE (F := Ideal) (score (padRows (rowsSrc (encode (unpadT (projT (padX x0) x2)) x1 x3) x1))
        (padRows (rowsDst (encode (unpadT (projT (padX x0) x2)) x1 x3) x1)))
      = val_main_v75 (F := Ideal) x0 x1 x2 x3 := by
  rw [proj_eq]
  funext i
  obtain ⟨e, rfl⟩ : ∃ e : Fin 1600000, i = ix1 e := ⟨i 0, eq_ix1 i⟩
  rw [unpadE_score, val_main_v75_at, val_main_v58_eq, val_main_v67_eq]

end Cert.KernelIdeal.Bridge

end
-- ==== Proof.KValue.lean ====
/-
  The kernel program's result buffer at the end of its run, as the reference's function of the launch contents.

  The run's boundary contents are a fold: host stretch, first pallas_call, host stretches, second pallas_call, closing slice.
  Read from the end: the result is the first 1600000 entries of the second call's output array; that array is `score` of the
  call's two input arrays; those are the padded rows gathered from the encoder's output; the encoder's input is the first
  call's output array transposed back and un-padded; that array is `projT` of the padded x and W; and the edge list's index
  vectors and normalisation pass the first call untouched.  With the two programs' pieces identified (Bridge), the whole is the
  reference's result.
-/
import proofs.«421589_j65000035058078_3_alg».proof.Proof.Gen.KernelIdeal.Frame
import proofs.«421589_j65000035058078_3_alg».proof.Proof.KHost
import proofs.«421589_j65000035058078_3_alg».proof.Proof.KBridge
import proofs.«421589_j65000035058078_3_alg».proof.Proof.ProjValue
import proofs.«421589_j65000035058078_3_alg».proof.Proof.DecodeValue

set_option maxRecDepth 16384

noncomputable section

namespace Cert.KernelIdeal.KValue

open Idealize.ShloMosaic Idealize.ShloMosaic.TcCoe Idealize.SL.Sem
open Cert.KernelIdeal Cert.KernelIdeal.Gen Cert.KernelIdeal.HostK
open Cert.KernelIdeal.Proj Cert.KernelIdeal.Decode
open Cert.ReferenceIdeal.ReadP Cert.ReferenceIdeal.RefValue

variable (m : (ℓ : Loc nD τ sig) → Buf (Elt Ideal) ℓ) (ρ : Dev nD → PrngReg)

/-- The launch contents of the four arguments. -/
abbrev x0 (c : Dev nD) : (⟨S100000x128, .f32⟩ : BufTy).Contents (Elt Ideal) := m ((c.tc : Thread nD τ).loc main_arg0)
abbrev x1 (c : Dev nD) : (⟨S2x1600000, .i32⟩ : BufTy).Contents (Elt Ideal) := m ((c.tc : Thread nD τ).loc main_arg1)
abbrev x2 (c : Dev nD) : (⟨S128x32, .f32⟩ : BufTy).Contents (Elt Ideal) := m ((c.tc : Thread nD τ).loc main_arg2)
abbrev x3 (c : Dev nD) : (⟨S32, .f32⟩ : BufTy).Contents (Elt Ideal) := m ((c.tc : Thread nD τ).loc main_arg3)

/-! ## At the first call's exit -/

/-- The first call leaves the edge list's stages where the first stretches put them. -/
theorem W4_v5 (c : Dev nD) : (W4 m ρ c (Proc.devRef .tc main_v5) : (⟨S1700000, .i32⟩ : BufTy).Contents (Elt Ideal)) = val_main_v3 (F := Ideal) (x1 m c) :=
  (W4_of_ne m ρ c main_v5 (by decide)).trans (pre_v5 (W0 m ρ c))
theorem W4_v6 (c : Dev nD) : (W4 m ρ c (Proc.devRef .tc main_v6) : (⟨S1700000, .i32⟩ : BufTy).Contents (Elt Ideal)) = val_main_v6 (F := Ideal) (x1 m c) :=
  (W4_of_ne m ρ c main_v6 (by decide)).trans (pre_v6 (W0 m ρ c))
theorem W4_v31 (c : Dev nD) : (W4 m ρ c (Proc.devRef .tc main_v31) : (⟨S1700000, .f32⟩ : BufTy).Contents (Elt Ideal)) = val_main_v31 (F := Ideal) (x1 m c) :=
  (W4_of_ne m ρ c main_v31 (by decide)).trans (pre_v31 (W0 m ρ c))
theorem W4_v1 (c : Dev nD) : (W4 m ρ c (Proc.devRef .tc main_v1) : (⟨S1600000, .i32⟩ : BufTy).Contents (Elt Ideal)) = val_main_v2 (F := Ideal) (x1 m c) :=
  (W4_of_ne m ρ c main_v1 (by decide)).trans (pre_v1 (W0 m ρ c))
theorem W4_v3 (c : Dev nD) : (W4 m ρ c (Proc.devRef .tc main_v3) : (⟨S1600000, .i32⟩ : BufTy).Contents (Elt Ideal)) = val_main_v5 (F := Ideal) (x1 m c) :=
  (W4_of_ne m ρ c main_v3 (by decide)).trans (pre_v3 (W0 m ρ c))
theorem W4_arg3 (c : Dev nD) : (W4 m ρ c (Proc.devRef .tc main_arg3) : (⟨S32, .f32⟩ : BufTy).Contents (Elt Ideal)) = x3 m c :=
  (W4_of_ne m ρ c main_arg3 (by decide)).trans (pre_arg3 (W0 m ρ c))

/-- The first call's output array is the transposed projection of the padded x and W. -/
theorem W4_v34 (c : Dev nD) :
    (W4 m ρ c (Proc.devRef .tc main_v34) : (⟨S32x100096, .f32⟩ : BufTy).Contents (Elt Ideal)) = projT (padX (x0 m c)) (x2 m c) :=
  (W4_arr m ρ c 2).trans ((arr0 (V3 m ρ) c).trans (congrArg₂ projT (pre_v33 (W0 m ρ c)) (pre_arg2 (W0 m ρ c))))

/-! ## At the second call's entry and exit -/

theorem W7_v69 (c : Dev nD) :
    (W7 m ρ c (Proc.devRef .tc main_v69) : (⟨S1605632x32, .f32⟩ : BufTy).Contents (Elt Ideal))
      = padRows (rowsSrc (encode (unpadT (projT (padX (x0 m c)) (x2 m c))) (x1 m c) (x3 m c)) (x1 m c)) := by
  have h := mid_v69 (W4 m ρ c) (x1 m c) (W4_v5 m ρ c) (W4_v6 m ρ c) (W4_v31 m ρ c) (W4_v1 m ρ c)
  rw [W4_v34 m ρ c, W4_arg3 m ρ c] at h
  exact h

theorem W7_v71 (c : Dev nD) :
    (W7 m ρ c (Proc.devRef .tc main_v71) : (⟨S1605632x32, .f32⟩ : BufTy).Contents (Elt Ideal))
      = padRows (rowsDst (encode (unpadT (projT (padX (x0 m c)) (x2 m c))) (x1 m c) (x3 m c)) (x1 m c)) := by
  have h := mid_v71 (W4 m ρ c) (x1 m c) (W4_v5 m ρ c) (W4_v6 m ρ c) (W4_v31 m ρ c) (W4_v3 m ρ c)
  rw [W4_v34 m ρ c, W4_arg3 m ρ c] at h
  exact h

/-- The second call's output array is the score of its two input arrays. -/
theorem W8_v72 (c : Dev nD) :
    (W8 m ρ c (Proc.devRef .tc main_v72) : (⟨S1605632, .f32⟩ : BufTy).Contents (Elt Ideal))
      = score (padRows (rowsSrc (encode (unpadT (projT (padX (x0 m c)) (x2 m c))) (x1 m c) (x3 m c)) (x1 m c)))
          (padRows (rowsDst (encode (unpadT (projT (padX (x0 m c)) (x2 m c))) (x1 m c) (x3 m c)) (x1 m c))) :=
  (W8_arr m ρ c 2).trans ((arr1 (V7 m ρ) c).trans (congrArg₂ score (W7_v69 m ρ c) (W7_v71 m ρ c)))

/-! ## The result -/

/-- The result buffer at the end of the run is the reference's function of the launch contents. -/
theorem W9_result (c : Dev nD) :
    (W9 m ρ c (Proc.devRef .tc main_v73) : (⟨S1600000, .f32⟩ : BufTy).Contents (Elt Ideal))
      = val_main_v75 (F := Ideal) (x0 m c) (x1 m c) (x2 m c) (x3 m c) :=
  (post_v73 (W8 m ρ c)).trans ((congrArg unpadE (W8_v72 m ρ c)).trans (Bridge.result_eq (x0 m c) (x1 m c) (x2 m c) (x3 m c)))

end Cert.KernelIdeal.KValue

end
-- ==== Proof.lean ====
/-
  A graph auto-encoder's link predictor, as a Pallas program, against its jnp reference: for every edge (s, d) the
  logistic function of the inner product of rows s and d of  z = max (Â·(x·W) + b, 0),  Â the symmetrically normalised
  adjacency with self-loops.

  The Pallas program does the two dense parts in kernels and the rest on the host exactly as the reference does:
    * x·W over x padded with 96 zero rows, seventeen row blocks, each product stored transposed; the host transposes back and
      drops the padding rows.  Entry (n, f) is Σ_k x(n,k)·W(k,f) on both sides (ProjValue, Bridge.proj_eq): the same sum of the
      same terms, so no law of the extended reals is needed, nor the inputs' finiteness.
    * the degree count, the normalisation, the gather / scale / scatter-add, the bias and the clamp are the same host operations
      on both sides, term for term (KHost; the reference's `encode`).
    * logistic (Σ_j z(s,j)·z(d,j)) over the gathered rows padded with 5632 zero rows, 196 blocks of edges; the host drops the
      padding edges (DecodeValue, Bridge.unpadE_score).  The reference spells the logistic function 1 / (1 + exp (-y)), which on
      the extended reals is the logistic function itself (RefValue.val_main_v75_at).
  The frames of the two printed kernel programs are the generated ones; the reference's is its run with the result dropped;
  the idealization rewrote nothing, so `preserves` is trivial.
-/
import proofs.«421589_j65000035058078_3_alg».proof.Defs
import proofs.«421589_j65000035058078_3_alg».proof.Proof.Gen.Kernel
import proofs.«421589_j65000035058078_3_alg».proof.Proof.Gen.Kernel.Skeleton
import proofs.«421589_j65000035058078_3_alg».proof.Proof.Gen.Kernel.Launch
import proofs.«421589_j65000035058078_3_alg».proof.Proof.Gen.Kernel.Points
import proofs.«421589_j65000035058078_3_alg».proof.Proof.Gen.Kernel.Frame
import proofs.«421589_j65000035058078_3_alg».proof.Proof.Gen.KernelIdeal
import proofs.«421589_j65000035058078_3_alg».proof.Proof.Gen.KernelIdeal.Skeleton
import proofs.«421589_j65000035058078_3_alg».proof.Proof.Gen.KernelIdeal.Launch
import proofs.«421589_j65000035058078_3_alg».proof.Proof.Gen.KernelIdeal.Points
import proofs.«421589_j65000035058078_3_alg».proof.Proof.Gen.KernelIdeal.Frame
import proofs.«421589_j65000035058078_3_alg».proof.Proof.Gen.ReferenceIdeal
import proofs.«421589_j65000035058078_3_alg».proof.Proof.Gen.Pre_finite_inputs
import proofs.«421589_j65000035058078_3_alg».proof.Proof.RefRun
import proofs.«421589_j65000035058078_3_alg».proof.Proof.RefRead
import proofs.«421589_j65000035058078_3_alg».proof.Proof.KRun
import proofs.«421589_j65000035058078_3_alg».proof.Proof.KValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.RunP.run (F := Ideal) m ρ)

/-- Both runs end with the reference's function of the (agreeing) argument arrays in the result buffer. -/
theorem algebraic : Cert.algebraic_KernelIdeal_ReferenceIdeal := by
  intro m ρ m' ρ' _ hagree
  refine ⟨fun c => Cert.ReferenceIdeal.ReadP.val_main_v75 (F := Ideal) (Cert.KernelIdeal.KValue.x0 m c) (Cert.KernelIdeal.KValue.x1 m c)
      (Cert.KernelIdeal.KValue.x2 m c) (Cert.KernelIdeal.KValue.x3 m c), ?_, ?_⟩
  · exact (θ_run Cert.KernelIdeal.defs _ _).mono (fun _ h c => ⟨(h c).1.trans (Cert.KernelIdeal.KValue.W9_result m ρ c), (h c).2⟩)
      (Cert.KernelIdeal.RunK.run (F := Ideal) m ρ)
  · refine (θ_run Cert.ReferenceIdeal.defs _ _).mono (fun _ h c => ⟨(h c).1.trans ?_, (h c).2⟩)
      (Cert.ReferenceIdeal.RunP.run (F := Ideal) m' ρ')
    rw [Cert.ReferenceIdeal.ReadP.val_main_v75_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
